-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1200000 : Shape := ⟨2, ![2, 1200000]⟩
abbrev S1200000x1 : Shape := ⟨2, ![1200000, 1]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1200000x1 : S_.BroadcastsInDim S1200000x1 (![] : Fin 0 → Fin S1200000x1.rank)
  reducesTo_S1200000x1_S_d0_1 : S1200000x1.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S1x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000 .f32) (main_arg1 : IVec S2x1200000 32) (main_arg2 : FVec F S1200000x1 .f32) (main_arg3 : IVec S100000 32) (main_arg4 : FVec F S1x64 .f32) (main_arg5 : FVec F S64 .f32) (main_arg6 : FVec F S1x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1200000x1 .f32 := Host.absf main_arg2
  let main_cst_0 : FVec F S_ .f32 := constant S_ .f32 0x7F800000#32
  let main_v5 : FVec F S1200000x1 .f32 := broadcastInDim S1200000x1 ![] bcast_S_S1200000x1 main_cst_0
  let main_v6 : IVec S1200000x1 1 := cmpf .olt main_v4 main_v5
  let main_c_1 : IVec S_ 1 := constantI S_ 1 1#1
  let main_v7 : IVec S_ 1 := (fun x v => Host.reduce IntOp.andi x v reducesTo_S1200000x1_S_d0_1 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000 : Shape := ⟨1, ![100000]⟩
abbrev S2x1200000 : Shape := ⟨2, ![2, 1200000]⟩
abbrev S1200000x1 : Shape := ⟨2, ![1200000, 1]⟩
abbrev S1x64 : Shape := ⟨2, ![1, 64]⟩
abbrev S64 : Shape := ⟨1, ![64]⟩
abbrev S64x64 : Shape := ⟨2, ![64, 64]⟩
abbrev S1x1200000 : Shape := ⟨2, ![1, 1200000]⟩
abbrev S1200000 : Shape := ⟨1, ![1200000]⟩
abbrev S100000x1 : Shape := ⟨2, ![100000, 1]⟩
abbrev S100000x64 : Shape := ⟨2, ![100000, 64]⟩
abbrev S1200000x64 : Shape := ⟨2, ![1200000, 64]⟩
abbrev S_ : Shape := ⟨0, ![]⟩
abbrev S5000x64 : Shape := ⟨2, ![5000, 64]⟩
abbrev S64x1 : Shape := ⟨2, ![64, 1]⟩

abbrev nBuf : Space → Nat
  | .hbm => 90
  | .vmem => 20
  | .smem => 0
  | _ => 0

abbrev bufTy : (tb : Table) → Fin (tcTables nBuf tb) → BufTy
  | .hbm, ⟨0, _⟩ => ⟨S100000, .f32⟩
  | .hbm, ⟨1, _⟩ => ⟨S2x1200000, .i32⟩
  | .hbm, ⟨2, _⟩ => ⟨S1200000x1, .f32⟩
  | .hbm, ⟨3, _⟩ => ⟨S100000, .i32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S100000x1, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S1200000x64, .f32⟩
  | .hbm, ⟨32, _⟩ => ⟨S1200000x64, .f32⟩
  | .hbm, ⟨33, _⟩ => ⟨S1200000x64, .f32⟩
  | .hbm, ⟨34, _⟩ => ⟨S1x64, .f32⟩
  | .hbm, ⟨35, _⟩ => ⟨S1200000x64, .f32⟩
  | .hbm, ⟨36, _⟩ => ⟨S1200000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S1200000x64, .f32⟩
  | .hbm, ⟨47, _⟩ => ⟨S_, .f32⟩
  | .hbm, ⟨48, _⟩ => ⟨S1200000x64, .f32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S1200000x64, .f32⟩
  | .hbm, ⟨65, _⟩ => ⟨S_, .f32⟩
  | .hbm, ⟨66, _⟩ => ⟨S1200000x64, .f32⟩
  | .hbm, ⟨67, _⟩ => ⟨S1200000x64, .f32⟩
  | .hbm, ⟨68, _⟩ => ⟨S_, .f32⟩
  | .hbm, ⟨69, _⟩ => ⟨S100000x64, .f32⟩
  | .hbm, ⟨70, _⟩ => ⟨S1200000x1, .i32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S64x64, .f32⟩
  | .hbm, ⟨75, _⟩ => ⟨S100000x1, .i32⟩
  | .hbm, ⟨76, _⟩ => ⟨S64x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S64, .f32⟩
  | .hbm, ⟨81, _⟩ => ⟨S100000x1, .i32⟩
  | .hbm, ⟨82, _⟩ => ⟨S64, .f32⟩
  | .hbm, ⟨83, _⟩ => ⟨S_, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64x1, .f32⟩
  | .hbm, ⟨88, _⟩ => ⟨S64x64, .f32⟩
  | .hbm, ⟨89, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_1 : Ref sig .tc := ⟨.hbm, 55, rfl⟩
abbrev main_v34 : Ref sig .tc := ⟨.hbm, 56, rfl⟩
abbrev main_v35 : Ref sig .tc := ⟨.hbm, 57, rfl⟩
abbrev main_c_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_call2_v0 : Ref sig .tc := ⟨.hbm, 84, rfl⟩
abbrev main_call2_v1 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S64_S1x64 : S64.ShapeCasts S1x64
  shapeCasts_S100000_S100000x1 : S100000.ShapeCasts S100000x1
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S1200000x1_S1200000x64_0_1 : S1200000x1.BroadcastsInDim S1200000x64 (![0, 1] : Fin 2 → Fin S1200000x64.rank)
  bcast_S1x64_S1200000x64_0_1 : S1x64.BroadcastsInDim S1200000x64 (![0, 1] : Fin 2 → Fin S1200000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x64 : S_.BroadcastsInDim S1200000x64 (![] : Fin 0 → Fin S1200000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000 : Shape := ⟨1, ![100000]⟩
abbrev S2x1200000 : Shape := ⟨2, ![2, 1200000]⟩
abbrev S1200000x1 : Shape := ⟨2, ![1200000, 1]⟩
abbrev S1x64 : Shape := ⟨2, ![1, 64]⟩
abbrev S64 : Shape := ⟨1, ![64]⟩
abbrev S64x64 : Shape := ⟨2, ![64, 64]⟩
abbrev S1x1200000 : Shape := ⟨2, ![1, 1200000]⟩
abbrev S1200000 : Shape := ⟨1, ![1200000]⟩
abbrev S100000x1 : Shape := ⟨2, ![100000, 1]⟩
abbrev S100000x64 : Shape := ⟨2, ![100000, 64]⟩
abbrev S1200000x64 : Shape := ⟨2, ![1200000, 64]⟩
abbrev S_ : Shape := ⟨0, ![]⟩
abbrev S64x1 : Shape := ⟨2, ![64, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000, .f32⟩
  | .hbm, ⟨1, _⟩ => ⟨S2x1200000, .i32⟩
  | .hbm, ⟨2, _⟩ => ⟨S1200000x1, .f32⟩
  | .hbm, ⟨3, _⟩ => ⟨S100000, .i32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S100000x1, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S1200000x64, .f32⟩
  | .hbm, ⟨26, _⟩ => ⟨S1x64, .f32⟩
  | .hbm, ⟨27, _⟩ => ⟨S1200000x64, .f32⟩
  | .hbm, ⟨28, _⟩ => ⟨S1200000x64, .f32⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S1200000x64, .f32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x64, .f32⟩
  | .hbm, ⟨70, _⟩ => ⟨S1200000x64, .f32⟩
  | .hbm, ⟨71, _⟩ => ⟨S_, .f32⟩
  | .hbm, ⟨72, _⟩ => ⟨S1200000x64, .f32⟩
  | .hbm, ⟨73, _⟩ => ⟨S1200000x64, .f32⟩
  | .hbm, ⟨74, _⟩ => ⟨S_, .f32⟩
  | .hbm, ⟨75, _⟩ => ⟨S100000x64, .f32⟩
  | .hbm, ⟨76, _⟩ => ⟨S1200000x1, .i32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S64x64, .f32⟩
  | .hbm, ⟨95, _⟩ => ⟨S100000x1, .i32⟩
  | .hbm, ⟨96, _⟩ => ⟨S64x64, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x64, .f32⟩
  | .hbm, ⟨109, _⟩ => ⟨S64x64, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call2_cst : Ref sig .tc := ⟨.hbm, 58, rfl⟩
abbrev main_call2_v0 : Ref sig .tc := ⟨.hbm, 59, rfl⟩
abbrev main_v35 : Ref sig .tc := ⟨.hbm, 60, rfl⟩
abbrev main_c_1 : Ref sig .tc := ⟨.hbm, 61, rfl⟩
abbrev main_v36 : Ref sig .tc := ⟨.hbm, 62, rfl⟩
abbrev main_v37 : Ref sig .tc := ⟨.hbm, 63, rfl⟩
abbrev main_c_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call3_cst : Ref sig .tc := ⟨.hbm, 71, rfl⟩
abbrev main_call3_v0 : Ref sig .tc := ⟨.hbm, 72, rfl⟩
abbrev main_v44 : Ref sig .tc := ⟨.hbm, 73, rfl⟩
abbrev main_cst_3 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call4_cst : Ref sig .tc := ⟨.hbm, 83, rfl⟩
abbrev main_call4_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call5_cst : Ref sig .tc := ⟨.hbm, 90, rfl⟩
abbrev main_call5_v0 : Ref sig .tc := ⟨.hbm, 91, rfl⟩
abbrev main_v58 : Ref sig .tc := ⟨.hbm, 92, rfl⟩
abbrev main_cst_4 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_5 : Ref sig .tc := ⟨.hbm, 97, rfl⟩
abbrev main_v62 : Ref sig .tc := ⟨.hbm, 98, rfl⟩
abbrev main_cst_6 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_7 : Ref sig .tc := ⟨.hbm, 103, rfl⟩
abbrev main_call6_v0 : Ref sig .tc := ⟨.hbm, 104, rfl⟩
abbrev main_call6_v1 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S100000_S100000x1 : S100000.ShapeCasts S100000x1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1200000x64_0_1 : S1x64.BroadcastsInDim S1200000x64 (![0, 1] : Fin 2 → Fin S1200000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x64 : S_.BroadcastsInDim S1200000x64 (![] : Fin 0 → Fin S1200000x64.rank)
  bcast_S_S100000x64 : S_.BroadcastsInDim S100000x64 (![] : Fin 0 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S100000x1_S1x64_S100000x64_1_0_0_1_n_n_wf : DotDims.WF S100000x1 S1x64 S100000x64 [1] [0] [0] [1] [] []
  dot_S1200000x1_S1x64_S1200000x64_1_0_0_1_n_n_wf : DotDims.WF S1200000x1 S1x64 S1200000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S1200000x1_S1x64_S1200000x64_1_0_0_1_n_n : DotDims S1200000x1 S1x64 S1200000x64 where
  lhsContracting := [1]
  rhsContracting := [0]
  lhsNonContracting := [0]
  rhsNonContracting := [1]
  lhsBatch := []
  rhsBatch := []
  wf := dot_S1200000x1_S1x64_S1200000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KSpec.lean ====
/-
  The host-side stages both programs share, each named once as a pure function of its operands.

  The graph network is: encode nodes and edges; twice, gather each edge's source row, add the edge encoding, rectify,
  sum the messages into their destination rows (`aggregate`) and update every node (the launch, or the host's two
  products); then average the node rows of each graph (`pool`).  The kernel's program and the reference apply the
  SAME gather, scatter-add and pooling operations, so the certificate carries them as these opaque functions and
  never opens them; only what differs between the two programs (the encoders' arrangement, the node update) is read
  entry by entry elsewhere.
-/
import proofs.«411431_j77713138253983_3_alg».proof.Proof.Gen.KernelIdeal

noncomputable section

namespace Cert.KernelIdeal.Spec

open Cert.KernelIdeal Cert.KernelIdeal.Facts₀ Idealize.ShloMosaic

variable {F : FTy → Type} [FloatOps F]

/-- Each edge's source node: row 0 of the edge list. -/
def edgeSrc (x1 : (⟨S2x1200000, .i32⟩ : BufTy).Contents (Elt F)) : (⟨S1200000, .i32⟩ : BufTy).Contents (Elt F) :=
  shapeCast _ (extractStridedSlice S1x1200000 ![0, 0] x1 slices_S2x1200000_S1x1200000_0_0) shapeCasts_S1x1200000_S1200000

/-- Each edge's destination node: row 1 of the edge list. -/
def edgeDst (x1 : (⟨S2x1200000, .i32⟩ : BufTy).Contents (Elt F)) : (⟨S1200000, .i32⟩ : BufTy).Contents (Elt F) :=
  shapeCast _ (extractStridedSlice S1x1200000 ![1, 0] x1 slices_S2x1200000_S1x1200000_1_0) shapeCasts_S1x1200000_S1200000

/-- A bias vector laid out as one row. -/
def biasRow (b : (⟨S64, .f32⟩ : BufTy).Contents (Elt F)) : (⟨S1x64, .f32⟩ : BufTy).Contents (Elt F) :=
  shapeCast _ b shapeCasts_S64_S1x64

/-- The node encoder as the kernel's program arranges it: x_r · w_q + b_q by broadcasts and a pointwise product. -/
def nodeEnc (x0 : (⟨S100000, .f32⟩ : BufTy).Contents (Elt F)) (x4 : (⟨S1x64, .f32⟩ : BufTy).Contents (Elt F)) (x5 : (⟨S64, .f32⟩ : BufTy).Contents (Elt F)) : (⟨S100000x64, .f32⟩ : BufTy).Contents (Elt F) :=
  addf (mulf (broadcastInDim S100000x64 ![0, 1] bcast_S100000x1_S100000x64_0_1 (shapeCast _ x0 shapeCasts_S100000_S100000x1))
      (broadcastInDim S100000x64 ![0, 1] bcast_S1x64_S100000x64_0_1 x4))
    (broadcastInDim S100000x64 ![0, 1] bcast_S1x64_S100000x64_0_1 (shapeCast _ x5 shapeCasts_S64_S1x64))

/-- The edge encoder as the kernel's program arranges it. -/
def edgeEnc (x2 : (⟨S1200000x1, .f32⟩ : BufTy).Contents (Elt F)) (x6 : (⟨S1x64, .f32⟩ : BufTy).Contents (Elt F)) (x7 : (⟨S64, .f32⟩ : BufTy).Contents (Elt F)) : (⟨S1200000x64, .f32⟩ : BufTy).Contents (Elt F) :=
  addf (mulf (broadcastInDim S1200000x64 ![0, 1] bcast_S1200000x1_S1200000x64_0_1 x2)
      (broadcastInDim S1200000x64 ![0, 1] bcast_S1x64_S1200000x64_0_1 x6))
    (broadcastInDim S1200000x64 ![0, 1] bcast_S1x64_S1200000x64_0_1 (shapeCast _ x7 shapeCasts_S64_S1x64))

/-- One round of message passing: relu(h[src] + e) summed into the destination rows (negative source indices
    wrapped by the node count, as jnp indexing does). -/
def aggregate (h : (⟨S100000x64, .f32⟩ : BufTy).Contents (Elt F)) (e : (⟨S1200000x64, .f32⟩ : BufTy).Contents (Elt F)) (s d : (⟨S1200000, .i32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 d)
    (maximumf (addf (Host.gather gather_S100000x64_S1200000x1_S1200000x64_1_0_n_n_0_1_164 h
          (broadcastInDim S1200000x1 ![0] bcast_S1200000_S1200000x1_0
            (select (cmpi .slt s (broadcastInDim S1200000 ![] bcast_S_S1200000 (constantI S_ 32 0#32)))
              (addi s (broadcastInDim S1200000 ![] bcast_S_S1200000 (constantI S_ 32 100000#32))) s))) e)
      (broadcastInDim S1200000x64 ![] bcast_S_S1200000x64 (constant S_ .f32 0x00000000#32)))

/-- Mean pooling per graph: the node rows summed by graph id, over the graph's node count clipped below at one. -/
def pool (h : (⟨S100000x64, .f32⟩ : BufTy).Contents (Elt F)) (x3 : (⟨S100000, .i32⟩ : BufTy).Contents (Elt F)) : (⟨S64x64, .f32⟩ : BufTy).Contents (Elt F) :=
  Host.divf
    (Host.scatterAdd scatter_S64x64_S100000x1_S100000x64_1_0_0_1
      (broadcastInDim S64x64 ![] bcast_S_S64x64 (constant S_ .f32 0x00000000#32))
      (broadcastInDim S100000x1 ![0] bcast_S100000_S100000x1_0 x3) h)
    (broadcastInDim S64x64 ![0, 1] bcast_S64x1_S64x64_0_1 (broadcastInDim S64x1 ![0] bcast_S64_S64x1_0
      (maximumf (broadcastInDim S64 ![] bcast_S_S64 (constant S_ .f32 0x3F800000#32))
        (Host.scatterAdd scatter_S64_S100000x1_S100000_n_0_0_1
          (broadcastInDim S64 ![] bcast_S_S64 (constant S_ .f32 0x00000000#32))
          (broadcastInDim S100000x1 ![0] bcast_S100000_S100000x1_0 x3)
          (broadcastInDim S100000 ![] bcast_S_S100000 (constant S_ .f32 0x3F800000#32))))))

end Cert.KernelIdeal.Spec

end
-- ==== Proof.Walk.lean ====
/-
  The kernel program's buffers at the boundaries of its host stretches, read back to the launch contents.

  Between the launch and the first node update the host encodes nodes and edges and aggregates the first round of
  messages; between the two updates it aggregates the second round from the first update's output; after the second it
  pools.  Each buffer a later stage reads is followed back through the operations that do not write it to the
  operation that does, and that operation's value is the shared stage function (KSpec) of the launch contents, or of an
  update's output array, which stays opaque here.
-/
import proofs.«411431_j77713138253983_3_alg».proof.Proof.Gen.KernelIdeal.Frame
import proofs.«411431_j77713138253983_3_alg».proof.Proof.KSpec

set_option maxRecDepth 16384

noncomputable section

namespace Cert.KernelIdeal.Walk

open Cert.KernelIdeal Cert.KernelIdeal.Gen Cert.KernelIdeal.Spec Idealize.ShloMosaic Idealize.ShloMosaic.TcCoe
open Idealize.SL.Sem Idealize.ShloMosaic.StableHlo

variable {F : FTy → Type} [FloatOps F]
variable (m : (ℓ : Loc nD τ sig) → Buf (Elt F) ℓ) (ρ : Dev nD → PrngReg)

/-! ## Up to the first update: from the launch contents -/

set_option maxHeartbeats 8000000 in
theorem W3_v14 (c : Dev nD) : W3 m ρ c (Proc.devRef .tc main_v14)
    = nodeEnc (m ((c : Thread nD τ).loc main_arg0)) (m ((c : Thread nD τ).loc main_arg4)) (m ((c : Thread nD τ).loc main_arg5)) := by
  after_results_simp <;> rfl

set_option maxHeartbeats 8000000 in
theorem W3_v20 (c : Dev nD) : W3 m ρ c (Proc.devRef .tc main_v20)
    = edgeEnc (m ((c : Thread nD τ).loc main_arg2)) (m ((c : Thread nD τ).loc main_arg6)) (m ((c : Thread nD τ).loc main_arg7)) := by
  after_results_simp <;> rfl

set_option maxHeartbeats 8000000 in
theorem W3_v1 (c : Dev nD) : W3 m ρ c (Proc.devRef .tc main_v1)
    = edgeSrc (m ((c : Thread nD τ).loc main_arg1)) := by
  after_results_simp <;> rfl

set_option maxHeartbeats 8000000 in
theorem W3_v3 (c : Dev nD) : W3 m ρ c (Proc.devRef .tc main_v3)
    = edgeDst (m ((c : Thread nD τ).loc main_arg1)) := by
  after_results_simp <;> rfl

set_option maxHeartbeats 8000000 in
theorem W3_v32 (c : Dev nD) : W3 m ρ c (Proc.devRef .tc main_v32)
    = aggregate (nodeEnc (m ((c : Thread nD τ).loc main_arg0)) (m ((c : Thread nD τ).loc main_arg4)) (m ((c : Thread nD τ).loc main_arg5))) (edgeEnc (m ((c : Thread nD τ).loc main_arg2)) (m ((c : Thread nD τ).loc main_arg6)) (m ((c : Thread nD τ).loc main_arg7)))
        (edgeSrc (m ((c : Thread nD τ).loc main_arg1))) (edgeDst (m ((c : Thread nD τ).loc main_arg1))) := by
  after_results_simp <;> rfl

set_option maxHeartbeats 8000000 in
theorem W3_v4 (c : Dev nD) : W3 m ρ c (Proc.devRef .tc main_v4)
    = biasRow (m ((c : Thread nD τ).loc main_arg9)) := by
  after_results_simp <;> rfl

set_option maxHeartbeats 8000000 in
theorem W3_v5 (c : Dev nD) : W3 m ρ c (Proc.devRef .tc main_v5)
    = biasRow (m ((c : Thread nD τ).loc main_arg11)) := by
  after_results_simp <;> rfl

set_option maxHeartbeats 8000000 in
theorem W3_v6 (c : Dev nD) : W3 m ρ c (Proc.devRef .tc main_v6)
    = biasRow (m ((c : Thread nD τ).loc main_arg13)) := by
  after_results_simp <;> rfl

set_option maxHeartbeats 8000000 in
theorem W3_v7 (c : Dev nD) : W3 m ρ c (Proc.devRef .tc main_v7)
    = biasRow (m ((c : Thread nD τ).loc main_arg15)) := by
  after_results_simp <;> rfl

set_option maxHeartbeats 8000000 in
theorem W3_arg8 (c : Dev nD) : W3 m ρ c (Proc.devRef .tc main_arg8)
    = (m ((c : Thread nD τ).loc main_arg8)) := by
  after_results_simp <;> rfl

set_option maxHeartbeats 8000000 in
theorem W3_arg10 (c : Dev nD) : W3 m ρ c (Proc.devRef .tc main_arg10)
    = (m ((c : Thread nD τ).loc main_arg10)) := by
  after_results_simp <;> rfl

set_option maxHeartbeats 8000000 in
theorem W3_arg12 (c : Dev nD) : W3 m ρ c (Proc.devRef .tc main_arg12)
    = (m ((c : Thread nD τ).loc main_arg12)) := by
  after_results_simp <;> rfl

set_option maxHeartbeats 8000000 in
theorem W3_arg14 (c : Dev nD) : W3 m ρ c (Proc.devRef .tc main_arg14)
    = (m ((c : Thread nD τ).loc main_arg14)) := by
  after_results_simp <;> rfl

set_option maxHeartbeats 8000000 in
theorem W3_arg3 (c : Dev nD) : W3 m ρ c (Proc.devRef .tc main_arg3)
    = (m ((c : Thread nD τ).loc main_arg3)) := by
  after_results_simp <;> rfl

/-! ## Between the two updates: from the first update's exit contents -/

set_option maxHeartbeats 8000000 in
theorem W7_v33 (c : Dev nD) : W7 m ρ c (Proc.devRef .tc main_v33)
    = W4 m ρ c (Proc.devRef .tc main_v33) := by
  after_results_simp <;> rfl

set_option maxHeartbeats 8000000 in
theorem W7_v45 (c : Dev nD) : W7 m ρ c (Proc.devRef .tc main_v45)
    = aggregate (W4 m ρ c (Proc.devRef .tc main_v33)) (W4 m ρ c (Proc.devRef .tc main_v20))
        (W4 m ρ c (Proc.devRef .tc main_v1)) (W4 m ρ c (Proc.devRef .tc main_v3)) := by
  after_results_simp <;> rfl

set_option maxHeartbeats 8000000 in
theorem W7_v6 (c : Dev nD) : W7 m ρ c (Proc.devRef .tc main_v6)
    = W4 m ρ c (Proc.devRef .tc main_v6) := by
  after_results_simp <;> rfl

set_option maxHeartbeats 8000000 in
theorem W7_v7 (c : Dev nD) : W7 m ρ c (Proc.devRef .tc main_v7)
    = W4 m ρ c (Proc.devRef .tc main_v7) := by
  after_results_simp <;> rfl

set_option maxHeartbeats 8000000 in
theorem W7_arg12 (c : Dev nD) : W7 m ρ c (Proc.devRef .tc main_arg12)
    = W4 m ρ c (Proc.devRef .tc main_arg12) := by
  after_results_simp <;> rfl

set_option maxHeartbeats 8000000 in
theorem W7_arg14 (c : Dev nD) : W7 m ρ c (Proc.devRef .tc main_arg14)
    = W4 m ρ c (Proc.devRef .tc main_arg14) := by
  after_results_simp <;> rfl

set_option maxHeartbeats 8000000 in
theorem W7_arg3 (c : Dev nD) : W7 m ρ c (Proc.devRef .tc main_arg3)
    = W4 m ρ c (Proc.devRef .tc main_arg3) := by
  after_results_simp <;> rfl

/-! ## After the second update: from its exit contents -/

set_option maxHeartbeats 8000000 in
theorem W11_v57 (c : Dev nD) : W11 m ρ c (Proc.devRef .tc main_v57)
    = pool (W8 m ρ c (Proc.devRef .tc main_v46)) (W8 m ρ c (Proc.devRef .tc main_arg3)) := by
  after_results_simp <;> rfl

end Cert.KernelIdeal.Walk

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«411431_j77713138253983_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.Mlp.lean ====
/-
  One GINE layer's node update at one entry, on the extended reals.

  The update of node r is relu(relu((h_r + a_r) W1 + b1) W2 + b2): entry (r, q) depends on row r of the node
  features h and of the aggregated messages a only, on the two 64 x 64 weight matrices and on the two bias rows.
  `entry` writes that number down.  Two arrangements of the same arithmetic are read at an entry here:

  * the in-kernel one, over a block of M rows: both sums are matrix products into the zero array whose operands
    pass through a change of float format (the identity on the extended reals), the bias rows are [1, 64] arrays
    broadcast over the rows, the rectifier is a maximum with a splat zero;
  * the host one, over the whole array of M rows: the sums are dot_generals, the bias rows are broadcast in
    dimensions [0, 1], the rectifier is a maximum with a broadcast scalar zero.

  Both equal `entry` of row r of their operands, so a block of the host form is the kernel form of the blocks.
-/
import proofs.«411431_j77713138253983_3_alg».proof.Proof.LibPlainAny
import Idealize.ShloMosaic.Lib.ValueLayout
import Idealize.ShloMosaic.Lib.Pipeline.Value

noncomputable section

namespace Cert.Mlp

open Idealize.ShloMosaic Idealize.ShloMosaic.ValueIdx

abbrev SW : Shape := ⟨2, ![64, 64]⟩
abbrev SB : Shape := ⟨2, ![1, 64]⟩
abbrev SZ : Shape := ⟨0, ![]⟩

/-- The zero every rectifier compares with. -/
abbrev z0 : EReal := Ideal.ofBits .f32 0x00000000#32

/-- Entry q of relu(relu((hrow + arow) W1 + b1) W2 + b2), for one node's two rows. -/
def entry (hrow arow : Fin 64 → EReal) (w1 : FVec Ideal SW .f32) (b1 : FVec Ideal SB .f32)
    (w2 : FVec Ideal SW .f32) (b2 : FVec Ideal SB .f32) (q : Fin 64) : EReal :=
  max ((∑ k2 : Fin 64, max ((∑ k1 : Fin 64, (hrow k1 + arow k1) * w1 (ix2 k1 k2)) + b1 (ix2 (0 : Fin 1) k2)) z0 * w2 (ix2 k2 q))
    + b2 (ix2 (0 : Fin 1) q)) z0

variable (M : Nat)

/-- The in-kernel arrangement over M rows. -/
def kernelForm (x0 x1 : FVec Ideal ⟨2, ![M, 64]⟩ .f32) (w1 : FVec Ideal SW .f32) (b1 : FVec Ideal SB .f32)
    (w2 : FVec Ideal SW .f32) (b2 : FVec Ideal SB .f32) (hb : SB.Broadcasts ⟨2, ![M, 64]⟩)
    (ht : FTy.bf16.bits < FTy.f32.bits) : FVec Ideal ⟨2, ![M, 64]⟩ .f32 :=
  maximumf (addf (matmul (DotDims.plain M 64 64) none
      (truncf .bf16 (maximumf (addf (matmul (DotDims.plain M 64 64) none (truncf .bf16 (addf x0 x1) ht) (truncf .bf16 w1 ht)
          (constant ⟨2, ![M, 64]⟩ .f32 0x00000000#32)) (broadcastTo ⟨2, ![M, 64]⟩ b1 hb))
        (broadcast ⟨2, ![M, 64]⟩ (Scalar.ofBits (F := Ideal) .f32 0x00000000#32))) ht)
      (truncf .bf16 w2 ht) (constant ⟨2, ![M, 64]⟩ .f32 0x00000000#32)) (broadcastTo ⟨2, ![M, 64]⟩ b2 hb))
    (broadcast ⟨2, ![M, 64]⟩ (Scalar.ofBits (F := Ideal) .f32 0x00000000#32))

theorem kernelForm_apply (x0 x1 : FVec Ideal ⟨2, ![M, 64]⟩ .f32) (w1 : FVec Ideal SW .f32) (b1 : FVec Ideal SB .f32)
    (w2 : FVec Ideal SW .f32) (b2 : FVec Ideal SB .f32) (hb : SB.Broadcasts ⟨2, ![M, 64]⟩)
    (ht : FTy.bf16.bits < FTy.f32.bits) (p : Fin M) (q : Fin 64) :
    kernelForm M x0 x1 w1 b1 w2 b2 hb ht (ix2 p q)
      = entry (fun k => x0 (ix2 p k)) (fun k => x1 (ix2 p k)) w1 b1 w2 b2 q := by
  unfold kernelForm entry
  rw [maximumf_apply, addf_apply, Cert.LibPlainAny.matmul_plain_zero_any, broadcastTo_1b_ab_apply, broadcast_apply]
  refine congrArg (fun s => max (s + b2 (ix2 (0 : Fin 1) q)) z0) (Finset.sum_congr rfl fun k2 _ => ?_)
  rw [truncf_apply, truncf_apply, maximumf_apply, addf_apply, Cert.LibPlainAny.matmul_plain_zero_any,
    broadcastTo_1b_ab_apply, broadcast_apply]
  refine congrArg (fun s => max (s + b1 (ix2 (0 : Fin 1) k2)) z0 * w2 (ix2 k2 q)) (Finset.sum_congr rfl fun k1 _ => ?_)
  rw [truncf_apply, truncf_apply, addf_apply]

/-- The host arrangement over M rows. -/
def hostForm (h a : FVec Ideal ⟨2, ![M, 64]⟩ .f32) (w1 : FVec Ideal SW .f32) (b1 : FVec Ideal SB .f32)
    (w2 : FVec Ideal SW .f32) (b2 : FVec Ideal SB .f32) (hb : SB.BroadcastsInDim ⟨2, ![M, 64]⟩ ![0, 1])
    (hz : SZ.BroadcastsInDim ⟨2, ![M, 64]⟩ ![]) : FVec Ideal ⟨2, ![M, 64]⟩ .f32 :=
  maximumf (addf (Host.dotGeneral (DotDims.plain M 64 64) none
      (maximumf (addf (Host.dotGeneral (DotDims.plain M 64 64) none (addf h a) w1) (broadcastInDim ⟨2, ![M, 64]⟩ ![0, 1] hb b1))
        (broadcastInDim ⟨2, ![M, 64]⟩ ![] hz (constant SZ .f32 0x00000000#32)))
      w2) (broadcastInDim ⟨2, ![M, 64]⟩ ![0, 1] hb b2))
    (broadcastInDim ⟨2, ![M, 64]⟩ ![] hz (constant SZ .f32 0x00000000#32))

/-- A bias row broadcast in dimensions [0, 1] reads the row at the entry's column. -/
theorem bias_apply (b : FVec Ideal SB .f32) (hb : SB.BroadcastsInDim ⟨2, ![M, 64]⟩ ![0, 1]) (r : Fin M) (q : Fin 64) :
    broadcastInDim ⟨2, ![M, 64]⟩ ![0, 1] hb b (ix2 r q) = b (ix2 (0 : Fin 1) q) :=
  broadcastInDim_apply ![0, 1] hb b (ix2 r q) (ix2 (0 : Fin 1) q) fun ax => by
    match ax with
    | ⟨0, _⟩ => rfl
    | ⟨1, _⟩ => rfl

/-- A scalar broadcast to every entry reads the scalar. -/
theorem zero_apply (hz : SZ.BroadcastsInDim ⟨2, ![M, 64]⟩ ![]) (i : (⟨2, ![M, 64]⟩ : Shape).Idx) :
    broadcastInDim ⟨2, ![M, 64]⟩ ![] hz (constant (F := Ideal) SZ .f32 0x00000000#32) i = z0 :=
  (broadcastInDim_apply (s := SZ) (t := ⟨2, ![M, 64]⟩) ![] hz (constant (F := Ideal) SZ .f32 0x00000000#32) i
    (fun a => a.elim0) (fun a => a.elim0)).trans rfl

theorem hostForm_apply (h a : FVec Ideal ⟨2, ![M, 64]⟩ .f32) (w1 : FVec Ideal SW .f32) (b1 : FVec Ideal SB .f32)
    (w2 : FVec Ideal SW .f32) (b2 : FVec Ideal SB .f32) (hb : SB.BroadcastsInDim ⟨2, ![M, 64]⟩ ![0, 1])
    (hz : SZ.BroadcastsInDim ⟨2, ![M, 64]⟩ ![]) (r : Fin M) (q : Fin 64) :
    hostForm M h a w1 b1 w2 b2 hb hz (ix2 r q)
      = entry (fun k => h (ix2 r k)) (fun k => a (ix2 r k)) w1 b1 w2 b2 q := by
  unfold hostForm entry
  rw [maximumf_apply, addf_apply, Cert.LibPlainAny.dotGeneral_plain_any, bias_apply, zero_apply]
  refine congrArg (fun s => max (s + b2 (ix2 (0 : Fin 1) q)) z0) (Finset.sum_congr rfl fun k2 _ => ?_)
  rw [maximumf_apply, addf_apply, Cert.LibPlainAny.dotGeneral_plain_any, bias_apply, zero_apply]
  refine congrArg (fun s => max (s + b1 (ix2 (0 : Fin 1) k2)) z0 * w2 (ix2 k2 q)) (Finset.sum_congr rfl fun k1 _ => ?_)
  rw [addf_apply]

end Cert.Mlp

end
-- ==== Proof.Region0.lean ====
/-
  What the first node-update launch leaves in its output array, on the extended reals.

  The launch walks 20 grid points; point t reads rows 5000 t … 5000 t + 4999 of the node features and of the
  aggregated messages, the two weight matrices and the two bias rows whole, and writes the same rows of the output.
  Row r of the update depends on row r of the two row-blocked operands only, so what point t writes back is block t
  of ONE whole-array function of the operands as the launch finds them: the host arrangement of the update
  (Cert.Mlp.hostForm) over all 100000 rows.  The blocks tile the output array, hence the array ends holding it.
-/
import proofs.«411431_j77713138253983_3_alg».proof.Proof.Gen.KernelIdeal.Frame
import proofs.«411431_j77713138253983_3_alg».proof.Proof.Mlp

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the in-kernel arrangement of the update over the block's 5000 rows. -/
theorem pay_eq (x0 x1 : Vec Ideal S5000x64 .f32) (x2 : Vec Ideal S64x64 .f32) (x3 : Vec Ideal S1x64 .f32)
    (x4 : Vec Ideal S64x64 .f32) (x5 : Vec Ideal S1x64 .f32) :
    k0_pay1 x0 x1 x2 x3 x4 x5 = Cert.Mlp.kernelForm 5000 x0 x1 x2 x3 x4 x5 broadcasts_S1x64_S5000x64 bitsLt_bf16_f32 := by
  unfold k0_pay1 Cert.Mlp.kernelForm
  simp only [shapeCast_self]
  rfl

/-- The update over all rows, of the operand arrays as the launch finds them. -/
def G (c : Dev nD) : S100000x64.Idx → EReal :=
  Cert.Mlp.hostForm 100000 (V c main_v14) (V c main_v32) (V c main_arg8) (V c main_v4) (V c main_arg10) (V c main_v5)
    bcast_S1x64_S100000x64_0_1 bcast_S_S100000x64

/-- The printed index maps over the grid: the row-blocked windows sit at block row t, column block 0; the whole
    windows at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  rw [pay_eq]
  funext j
  show Cert.Mlp.kernelForm 5000 (iblk0 V c 0 t) (iblk0 V c 1 t) (iblk0 V c 2 t) (iblk0 V c 3 t) (iblk0 V c 4 t) (iblk0 V c 5 t)
      broadcasts_S1x64_S5000x64 bitsLt_bf16_f32 j = G V c (((cfg0.win 6).blk t).view.emb j)
  obtain ⟨p, q, rfl⟩ : ∃ (p : Fin 5000) (q : Fin 64), j = ix2 p q := ⟨j 0, j 1, eq_ix2 j⟩
  obtain ⟨e00, e01, e10, e11, e20, e21, e30, e31, e40, e41, e50, e51, e60, e61⟩ := idx_facts t
  have ht : t.val < 20 := lt_of_lt_of_eq t.isLt N_0
  -- the array row this block row is
  have hr : t.val * 5000 + p.val < 100000 := by have := p.isLt; omega
  have hi : ((cfg0.win 6).blk t).view.emb (ix2 p q) = ix2 (⟨t.val * 5000 + p.val, hr⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  refine (Cert.Mlp.kernelForm_apply 5000 (iblk0 V c 0 t) (iblk0 V c 1 t) (iblk0 V c 2 t) (iblk0 V c 3 t) (iblk0 V c 4 t)
    (iblk0 V c 5 t) broadcasts_S1x64_S5000x64 bitsLt_bf16_f32 p q).trans ?_
  rw [hi]
  unfold G
  rw [Cert.Mlp.hostForm_apply]
  -- the row-blocked operands: block row p of point t is array row 5000 t + p
  have h0 : (fun k : Fin 64 => iblk0 V c 0 t (ix2 p k)) = fun k => V c main_v14 (ix2 (⟨t.val * 5000 + p.val, hr⟩ : Fin 100000) k) := by
    funext k
    show V c main_v14 (((cfg0.win 0).blk t).view.emb (ix2 p k)) = _
    refine congrArg (V c main_v14) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : (fun k : Fin 64 => iblk0 V c 1 t (ix2 p k)) = fun k => V c main_v32 (ix2 (⟨t.val * 5000 + p.val, hr⟩ : Fin 100000) k) := by
    funext k
    show V c main_v32 (((cfg0.win 1).blk t).view.emb (ix2 p k)) = _
    refine congrArg (V c main_v32) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  -- the whole operands: their one block is the array
  have h2 : iblk0 V c 2 t = V c main_arg8 := by
    funext y
    show V c main_arg8 (((cfg0.win 2).blk t).view.emb y) = _
    refine congrArg (V c main_arg8) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have h3 : iblk0 V c 3 t = V c main_v4 := by
    funext y
    show V c main_v4 (((cfg0.win 3).blk t).view.emb y) = _
    refine congrArg (V c main_v4) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  have h4 : iblk0 V c 4 t = V c main_arg10 := by
    funext y
    show V c main_arg10 (((cfg0.win 4).blk t).view.emb y) = _
    refine congrArg (V c main_arg10) (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  have h5 : iblk0 V c 5 t = V c main_v5 := by
    funext y
    show V c main_v5 (((cfg0.win 5).blk t).view.emb y) = _
    refine congrArg (V c main_v5) (funext fun a => Fin.ext ?_)
    match a with
    | ⟨0, _⟩ => show win0_5.index t (0 : Fin 2) * 1 + 1 * (y 0).val = (y 0).val; omega
    | ⟨1, _⟩ => show win0_5.index t (1 : Fin 2) * 64 + 1 * (y 1).val = (y 1).val; omega
  rw [h0, h1, h2, h3, h4, h5]

/-- An index of the output array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v33).slice (win0_6.rect t)).set ↔ _
  rw [View.set_slice_whole, Rect.mem_set_unit]
  exact Iff.rfl

/-- Row r of the output array is written back by point r / 5000: the 20 blocks tile the 100000 rows. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have hlt : (i 0).val / 5000 < cfg0.N := lt_of_lt_of_eq (by omega : (i 0).val / 5000 < 20) hN.symm
  refine ⟨⟨(i 0).val / 5000, hlt⟩, flush0_6 _, ?_⟩
  rw [mem_blk]
  obtain ⟨e00, e01, e10, e11, e20, e21, e30, e31, e40, e41, e50, e51, e60, e61⟩ := idx_facts ⟨(i 0).val / 5000, hlt⟩
  have e60' : win0_6.index ⟨(i 0).val / 5000, hlt⟩ (0 : Fin 2) = (i 0).val / 5000 := e60
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    omega

/-- The output array after the launch is the update of the operand arrays as the launch found them. -/
theorem array_eq (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  What the second node-update launch leaves in its output array, on the extended reals.

  The launch walks 20 grid points; point t reads rows 5000 t … 5000 t + 4999 of the node features and of the
  aggregated messages, the two weight matrices and the two bias rows whole, and writes the same rows of the output.
  Row r of the update depends on row r of the two row-blocked operands only, so what point t writes back is block t
  of ONE whole-array function of the operands as the launch finds them: the host arrangement of the update
  (Cert.Mlp.hostForm) over all 100000 rows.  The blocks tile the output array, hence the array ends holding it.
-/
import proofs.«411431_j77713138253983_3_alg».proof.Proof.Gen.KernelIdeal.Frame
import proofs.«411431_j77713138253983_3_alg».proof.Proof.Mlp

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the in-kernel arrangement of the update over the block's 5000 rows. -/
theorem pay_eq (x0 x1 : Vec Ideal S5000x64 .f32) (x2 : Vec Ideal S64x64 .f32) (x3 : Vec Ideal S1x64 .f32)
    (x4 : Vec Ideal S64x64 .f32) (x5 : Vec Ideal S1x64 .f32) :
    k1_pay1 x0 x1 x2 x3 x4 x5 = Cert.Mlp.kernelForm 5000 x0 x1 x2 x3 x4 x5 broadcasts_S1x64_S5000x64 bitsLt_bf16_f32 := by
  unfold k1_pay1 Cert.Mlp.kernelForm
  simp only [shapeCast_self]
  rfl

/-- The update over all rows, of the operand arrays as the launch finds them. -/
def G (c : Dev nD) : S100000x64.Idx → EReal :=
  Cert.Mlp.hostForm 100000 (V c main_v33) (V c main_v45) (V c main_arg12) (V c main_v6) (V c main_arg14) (V c main_v7)
    bcast_S1x64_S100000x64_0_1 bcast_S_S100000x64

/-- The printed index maps over the grid: the row-blocked windows sit at block row t, column block 0; the whole
    windows at block (0, 0). -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  rw [pay_eq]
  funext j
  show Cert.Mlp.kernelForm 5000 (iblk1 V c 0 t) (iblk1 V c 1 t) (iblk1 V c 2 t) (iblk1 V c 3 t) (iblk1 V c 4 t) (iblk1 V c 5 t)
      broadcasts_S1x64_S5000x64 bitsLt_bf16_f32 j = G V c (((cfg1.win 6).blk t).view.emb j)
  obtain ⟨p, q, rfl⟩ : ∃ (p : Fin 5000) (q : Fin 64), j = ix2 p q := ⟨j 0, j 1, eq_ix2 j⟩
  obtain ⟨e00, e01, e10, e11, e20, e21, e30, e31, e40, e41, e50, e51, e60, e61⟩ := idx_facts t
  have ht : t.val < 20 := lt_of_lt_of_eq t.isLt N_1
  -- the array row this block row is
  have hr : t.val * 5000 + p.val < 100000 := by have := p.isLt; omega
  have hi : ((cfg1.win 6).blk t).view.emb (ix2 p q) = ix2 (⟨t.val * 5000 + p.val, hr⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  refine (Cert.Mlp.kernelForm_apply 5000 (iblk1 V c 0 t) (iblk1 V c 1 t) (iblk1 V c 2 t) (iblk1 V c 3 t) (iblk1 V c 4 t)
    (iblk1 V c 5 t) broadcasts_S1x64_S5000x64 bitsLt_bf16_f32 p q).trans ?_
  rw [hi]
  unfold G
  rw [Cert.Mlp.hostForm_apply]
  -- the row-blocked operands: block row p of point t is array row 5000 t + p
  have h0 : (fun k : Fin 64 => iblk1 V c 0 t (ix2 p k)) = fun k => V c main_v33 (ix2 (⟨t.val * 5000 + p.val, hr⟩ : Fin 100000) k) := by
    funext k
    show V c main_v33 (((cfg1.win 0).blk t).view.emb (ix2 p k)) = _
    refine congrArg (V c main_v33) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : (fun k : Fin 64 => iblk1 V c 1 t (ix2 p k)) = fun k => V c main_v45 (ix2 (⟨t.val * 5000 + p.val, hr⟩ : Fin 100000) k) := by
    funext k
    show V c main_v45 (((cfg1.win 1).blk t).view.emb (ix2 p k)) = _
    refine congrArg (V c main_v45) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  -- the whole operands: their one block is the array
  have h2 : iblk1 V c 2 t = V c main_arg12 := by
    funext y
    show V c main_arg12 (((cfg1.win 2).blk t).view.emb y) = _
    refine congrArg (V c main_arg12) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have h3 : iblk1 V c 3 t = V c main_v6 := by
    funext y
    show V c main_v6 (((cfg1.win 3).blk t).view.emb y) = _
    refine congrArg (V c main_v6) (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  have h4 : iblk1 V c 4 t = V c main_arg14 := by
    funext y
    show V c main_arg14 (((cfg1.win 4).blk t).view.emb y) = _
    refine congrArg (V c main_arg14) (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  have h5 : iblk1 V c 5 t = V c main_v7 := by
    funext y
    show V c main_v7 (((cfg1.win 5).blk t).view.emb y) = _
    refine congrArg (V c main_v7) (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega
  rw [h0, h1, h2, h3, h4, h5]

/-- An index of the output array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v46).slice (win1_6.rect t)).set ↔ _
  rw [View.set_slice_whole, Rect.mem_set_unit]
  exact Iff.rfl

/-- Row r of the output array is written back by point r / 5000: the 20 blocks tile the 100000 rows. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := lt_of_lt_of_eq (by omega : (i 0).val / 5000 < 20) hN.symm
  refine ⟨⟨(i 0).val / 5000, hlt⟩, flush1_6 _, ?_⟩
  rw [mem_blk]
  obtain ⟨e00, e01, e10, e11, e20, e21, e30, e31, e40, e41, e50, e51, e60, e61⟩ := idx_facts ⟨(i 0).val / 5000, hlt⟩
  have e60' : win1_6.index ⟨(i 0).val / 5000, hlt⟩ (0 : Fin 2) = (i 0).val / 5000 := e60
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    omega

/-- The output array after the launch is the update of the operand arrays as the launch found them. -/
theorem array_eq (c : Dev nD) : (dat1 V c).arrAt 6 cfg1.N = G V c :=
  (dat1 V c).arrAt_eq_of_cover 6 (G V c) (fun t _ => flushed_eq V c t) cover

end Cert.KernelIdeal.Region1

end
-- ==== Proof.Net.lean ====
/-
  The whole network as one function of its stages, on the extended reals.

  A layer aggregates one round of messages from the node features and updates every node (the host arrangement of
  the update over all 100000 rows); the network is two layers and the pooling.  Both programs' results are this
  function: of the same edge lists, weights and graph ids, of the node and edge encodings as each program arranges
  them, and of the bias rows as each program lays them out.
-/
import proofs.«411431_j77713138253983_3_alg».proof.Proof.KSpec
import proofs.«411431_j77713138253983_3_alg».proof.Proof.Mlp

noncomputable section

namespace Cert.Net

open Cert.KernelIdeal Cert.KernelIdeal.Facts₀ Cert.KernelIdeal.Spec Idealize.ShloMosaic

abbrev Nodes := (⟨S100000x64, .f32⟩ : BufTy).Contents (Elt Ideal)
abbrev Edges := (⟨S1200000x64, .f32⟩ : BufTy).Contents (Elt Ideal)
abbrev EdgeIds := (⟨S1200000, .i32⟩ : BufTy).Contents (Elt Ideal)
abbrev Weights := (⟨S64x64, .f32⟩ : BufTy).Contents (Elt Ideal)
abbrev Row := (⟨S1x64, .f32⟩ : BufTy).Contents (Elt Ideal)

/-- One layer: the messages aggregated from h, then every node updated. -/
def layer (h : Nodes) (e : Edges) (s d : EdgeIds) (w1 : Weights) (b1 : Row) (w2 : Weights) (b2 : Row) : Nodes :=
  Cert.Mlp.hostForm 100000 h (aggregate h e s d) w1 b1 w2 b2 bcast_S1x64_S100000x64_0_1 bcast_S_S100000x64

/-- Two layers, then the mean of each graph's node rows. -/
def network (h0 : Nodes) (e : Edges) (s d : EdgeIds) (x3 : (⟨S100000, .i32⟩ : BufTy).Contents (Elt Ideal))
    (w1 : Weights) (b1 : Row) (w2 : Weights) (b2 : Row) (w3 : Weights) (b3 : Row) (w4 : Weights) (b4 : Row) :
    (⟨S64x64, .f32⟩ : BufTy).Contents (Elt Ideal) :=
  pool (layer (layer h0 e s d w1 b1 w2 b2) e s d w3 b3 w4 b4) x3

end Cert.Net

end
-- ==== Proof.KernelValue.lean ====
/-
  The kernel program's result, on the extended reals, as the network function of the launch contents.

  The first update's output array is the layer function of the encodings; the second update reads that array and
  the second round of messages aggregated from it, so its output is the layer function of the first layer's; the
  pooling of the second output is the result.  Each step is the launch's array equation (Region0, Region1) at the
  entry contents read back by the walk.
-/
import proofs.«411431_j77713138253983_3_alg».proof.Proof.Walk
import proofs.«411431_j77713138253983_3_alg».proof.Proof.Region0
import proofs.«411431_j77713138253983_3_alg».proof.Proof.Region1
import proofs.«411431_j77713138253983_3_alg».proof.Proof.Net

set_option maxRecDepth 16384

noncomputable section

namespace Cert.KernelIdeal.KernelValue

open Cert.KernelIdeal Cert.KernelIdeal.Gen Cert.KernelIdeal.Spec Cert.KernelIdeal.Walk
open Idealize.ShloMosaic Idealize.ShloMosaic.TcCoe Idealize.SL.Sem

variable (m : (ℓ : Loc nD τ sig) → Buf (Elt Ideal) ℓ) (ρ : Dev nD → PrngReg)

/-- The first update's output array: one layer over the encodings. -/
theorem first_layer (c : Dev nD) : W4 m ρ c (Proc.devRef .tc main_v33)
    = (Cert.Net.layer (nodeEnc (m ((c : Thread nD τ).loc main_arg0)) (m ((c : Thread nD τ).loc main_arg4)) (m ((c : Thread nD τ).loc main_arg5))) (edgeEnc (m ((c : Thread nD τ).loc main_arg2)) (m ((c : Thread nD τ).loc main_arg6)) (m ((c : Thread nD τ).loc main_arg7)))
        (edgeSrc (m ((c : Thread nD τ).loc main_arg1))) (edgeDst (m ((c : Thread nD τ).loc main_arg1)))
        (m ((c : Thread nD τ).loc main_arg8)) (biasRow (m ((c : Thread nD τ).loc main_arg9))) (m ((c : Thread nD τ).loc main_arg10)) (biasRow (m ((c : Thread nD τ).loc main_arg11)))) := by
  refine (show W4 m ρ c (Proc.devRef .tc main_v33) = (dat0 (V3 m ρ) c).arrAt 6 cfg0.N from W4_arr m ρ c 6).trans ?_
  rw [Region0.array_eq]
  unfold Region0.G Cert.Net.layer
  show Cert.Mlp.hostForm 100000 (W3 m ρ c (Proc.devRef .tc main_v14)) (W3 m ρ c (Proc.devRef .tc main_v32)) (W3 m ρ c (Proc.devRef .tc main_arg8))
    (W3 m ρ c (Proc.devRef .tc main_v4)) (W3 m ρ c (Proc.devRef .tc main_arg10)) (W3 m ρ c (Proc.devRef .tc main_v5)) _ _ = _
  rw [W3_v14, W3_v32, W3_arg8, W3_v4, W3_arg10, W3_v5]

/-- The second update's output array: one more layer over the first's output. -/
theorem second_layer (c : Dev nD) : W8 m ρ c (Proc.devRef .tc main_v46)
    = Cert.Net.layer (Cert.Net.layer (nodeEnc (m ((c : Thread nD τ).loc main_arg0)) (m ((c : Thread nD τ).loc main_arg4)) (m ((c : Thread nD τ).loc main_arg5))) (edgeEnc (m ((c : Thread nD τ).loc main_arg2)) (m ((c : Thread nD τ).loc main_arg6)) (m ((c : Thread nD τ).loc main_arg7)))
        (edgeSrc (m ((c : Thread nD τ).loc main_arg1))) (edgeDst (m ((c : Thread nD τ).loc main_arg1)))
        (m ((c : Thread nD τ).loc main_arg8)) (biasRow (m ((c : Thread nD τ).loc main_arg9))) (m ((c : Thread nD τ).loc main_arg10)) (biasRow (m ((c : Thread nD τ).loc main_arg11))))
        (edgeEnc (m ((c : Thread nD τ).loc main_arg2)) (m ((c : Thread nD τ).loc main_arg6)) (m ((c : Thread nD τ).loc main_arg7))) (edgeSrc (m ((c : Thread nD τ).loc main_arg1))) (edgeDst (m ((c : Thread nD τ).loc main_arg1)))
        (m ((c : Thread nD τ).loc main_arg12)) (biasRow (m ((c : Thread nD τ).loc main_arg13))) (m ((c : Thread nD τ).loc main_arg14)) (biasRow (m ((c : Thread nD τ).loc main_arg15))) := by
  refine (show W8 m ρ c (Proc.devRef .tc main_v46) = (dat1 (V7 m ρ) c).arrAt 6 cfg1.N from W8_arr m ρ c 6).trans ?_
  rw [Region1.array_eq]
  unfold Region1.G
  show Cert.Mlp.hostForm 100000 (W7 m ρ c (Proc.devRef .tc main_v33)) (W7 m ρ c (Proc.devRef .tc main_v45)) (W7 m ρ c (Proc.devRef .tc main_arg12))
    (W7 m ρ c (Proc.devRef .tc main_v6)) (W7 m ρ c (Proc.devRef .tc main_arg14)) (W7 m ρ c (Proc.devRef .tc main_v7)) _ _ = _
  rw [W7_v33, W7_v45, W7_arg12, W7_v6, W7_arg14, W7_v7, first_layer,
    W4_of_ne m ρ c main_v20 (by decide), W3_v20, W4_of_ne m ρ c main_v1 (by decide), W3_v1,
    W4_of_ne m ρ c main_v3 (by decide), W3_v3, W4_of_ne m ρ c main_arg12 (by decide), W3_arg12,
    W4_of_ne m ρ c main_v6 (by decide), W3_v6, W4_of_ne m ρ c main_arg14 (by decide), W3_arg14,
    W4_of_ne m ρ c main_v7 (by decide), W3_v7]
  rfl

/-- The result buffer at the last boundary: the network function of the launch contents. -/
theorem result (c : Dev nD) : W11 m ρ c (Proc.devRef .tc main_v57)
    = Cert.Net.network (nodeEnc (m ((c : Thread nD τ).loc main_arg0)) (m ((c : Thread nD τ).loc main_arg4)) (m ((c : Thread nD τ).loc main_arg5))) (edgeEnc (m ((c : Thread nD τ).loc main_arg2)) (m ((c : Thread nD τ).loc main_arg6)) (m ((c : Thread nD τ).loc main_arg7)))
        (edgeSrc (m ((c : Thread nD τ).loc main_arg1))) (edgeDst (m ((c : Thread nD τ).loc main_arg1))) (m ((c : Thread nD τ).loc main_arg3))
        (m ((c : Thread nD τ).loc main_arg8)) (biasRow (m ((c : Thread nD τ).loc main_arg9))) (m ((c : Thread nD τ).loc main_arg10)) (biasRow (m ((c : Thread nD τ).loc main_arg11)))
        (m ((c : Thread nD τ).loc main_arg12)) (biasRow (m ((c : Thread nD τ).loc main_arg13))) (m ((c : Thread nD τ).loc main_arg14)) (biasRow (m ((c : Thread nD τ).loc main_arg15))) := by
  rw [W11_v57, second_layer, W8_of_ne m ρ c main_arg3 (by decide), W7_arg3, W4_of_ne m ρ c main_arg3 (by decide), W3_arg3]
  rfl

end Cert.KernelIdeal.KernelValue

end
-- ==== Proof.RefValue.lean ====
/-
  The reference's result is the network function of its own encoders and bias rows.

  The reference's run ends with its result at the composed term of its operations.  Read stage by stage that term
  is: the node and edge encodings (a product with a 1 x 64 matrix plus the bias), then twice the message aggregation
  and the node update as two host products, then the pooling — the network function (Cert.Net.network) of the
  reference's encodings and of its bias rows (each bias vector broadcast to one row).
-/
import proofs.«411431_j77713138253983_3_alg».proof.Proof.Gen.ReferenceIdeal.Read
import proofs.«411431_j77713138253983_3_alg».proof.Proof.Net

set_option maxRecDepth 16384

noncomputable section

namespace Cert.ReferenceIdeal.RefValue

open Cert.ReferenceIdeal Cert.ReferenceIdeal.Gen Idealize.ShloMosaic Idealize.ShloMosaic.TcCoe Idealize.SL.Sem

/-- A bias vector broadcast to one row, as the reference lays it out. -/
def biasBc (b : (⟨S64, .f32⟩ : BufTy).Contents (Elt Ideal)) : (⟨S1x64, .f32⟩ : BufTy).Contents (Elt Ideal) :=
  broadcastInDim S1x64 ![1] bcast_S64_S1x64_1 b

set_option maxHeartbeats 4000000 in
theorem result_eq (m : (ℓ : Loc nD τ sig) → Buf (Elt Ideal) ℓ) (c : Dev nD) :
    Cert.ReferenceIdeal.Value.res_main_v69 (F := Ideal) m c
      = Cert.Net.network (Read.val_main_v8 (F := Ideal) (m ((c.tc : Thread nD τ).loc main_arg0)) (m ((c.tc : Thread nD τ).loc main_arg4)) (m ((c.tc : Thread nD τ).loc main_arg5)))
          (Read.val_main_v12 (F := Ideal) (m ((c.tc : Thread nD τ).loc main_arg2)) (m ((c.tc : Thread nD τ).loc main_arg6)) (m ((c.tc : Thread nD τ).loc main_arg7)))
          (Cert.KernelIdeal.Spec.edgeSrc (m ((c.tc : Thread nD τ).loc main_arg1))) (Cert.KernelIdeal.Spec.edgeDst (m ((c.tc : Thread nD τ).loc main_arg1))) (m ((c.tc : Thread nD τ).loc main_arg3))
          (m ((c.tc : Thread nD τ).loc main_arg8)) (biasBc (m ((c.tc : Thread nD τ).loc main_arg9))) (m ((c.tc : Thread nD τ).loc main_arg10)) (biasBc (m ((c.tc : Thread nD τ).loc main_arg11)))
          (m ((c.tc : Thread nD τ).loc main_arg12)) (biasBc (m ((c.tc : Thread nD τ).loc main_arg13))) (m ((c.tc : Thread nD τ).loc main_arg14)) (biasBc (m ((c.tc : Thread nD τ).loc main_arg15))) := by
  unfold Cert.ReferenceIdeal.Value.res_main_v69
  rfl

end Cert.ReferenceIdeal.RefValue

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.Bridge.lean ====
/-
  The two programs' encoders and bias rows are the same arrays, on the extended reals.

  The reference encodes a node as the product of the column [x_r] with the 1 x 64 weight row plus the bias; the sum
  over the one contracted index is its single term x_r · w_q, which is what the kernel's program computes by
  broadcasting the column and the row and multiplying entry by entry.  The same holds of the edge encoder.  A bias
  vector recast as a row [1, 64] (the kernel's program) and broadcast to a row (the reference) are the same row.
  No law beyond "a sum over one index is its term" is used, so nothing here needs the inputs to be finite.
-/
import proofs.«411431_j77713138253983_3_alg».proof.Proof.Gen.ReferenceIdeal.Read
import proofs.«411431_j77713138253983_3_alg».proof.Proof.KSpec
import proofs.«411431_j77713138253983_3_alg».proof.Proof.RefValue
import proofs.«411431_j77713138253983_3_alg».proof.Proof.LibLayout2

noncomputable section

namespace Cert.Bridge

open Idealize.ShloMosaic Idealize.ShloMosaic.ValueIdx Cert.LibLayout2
open Cert.ReferenceIdeal Cert.ReferenceIdeal.Gen Cert.ReferenceIdeal.Read

/-- The node encodings agree entry by entry: x_r · w_q + b_q. -/
theorem nodeEnc_eq (x0 : (⟨S100000, .f32⟩ : BufTy).Contents (Elt Ideal)) (x4 : (⟨S1x64, .f32⟩ : BufTy).Contents (Elt Ideal))
    (x5 : (⟨S64, .f32⟩ : BufTy).Contents (Elt Ideal)) :
    Cert.KernelIdeal.Spec.nodeEnc (F := Ideal) x0 x4 x5 = val_main_v8 (F := Ideal) x0 x4 x5 := by
  funext i
  obtain ⟨r, q, rfl⟩ : ∃ (r : Fin 100000) (q : Fin 64), i = ix2 r q := ⟨i 0, i 1, eq_ix2 i⟩
  rw [val_main_v8_apply, val_main_v5_apply, val_main_v7_apply, val_main_v6_apply, Fin.sum_univ_one, val_main_v4_apply]
  unfold Cert.KernelIdeal.Spec.nodeEnc
  rw [addf_apply, mulf_apply, bcast_col_apply, bcast_row_apply, bcast_row_apply, shapeCast_a_a1_apply, shapeCast_a_1a_apply]
  have e0 : idx_main_v4 (lidx_main_v5 (ix2 r q) 0) = ix1 r := funext fun a => Fin.ext (by
    match a with
    | ⟨0, _⟩ => show r.val * 1 + 0 = r.val; omega)
  have e1 : ridx_main_v5 (ix2 r q) 0 = ix2 (0 : Fin 1) q := funext fun a => Fin.ext (by
    match a with
    | ⟨0, _⟩ => rfl
    | ⟨1, _⟩ => rfl)
  have e2 : idx_main_v6 (idx_main_v7 (ix2 r q)) = ix1 q := funext fun a => Fin.ext (by
    match a with
    | ⟨0, _⟩ => rfl)
  rw [e0, e1, e2]
  rfl

/-- The edge encodings agree entry by entry: a_e · w_q + b_q. -/
theorem edgeEnc_eq (x2 : (⟨S1200000x1, .f32⟩ : BufTy).Contents (Elt Ideal)) (x6 : (⟨S1x64, .f32⟩ : BufTy).Contents (Elt Ideal))
    (x7 : (⟨S64, .f32⟩ : BufTy).Contents (Elt Ideal)) :
    Cert.KernelIdeal.Spec.edgeEnc (F := Ideal) x2 x6 x7 = val_main_v12 (F := Ideal) x2 x6 x7 := by
  funext i
  obtain ⟨r, q, rfl⟩ : ∃ (r : Fin 1200000) (q : Fin 64), i = ix2 r q := ⟨i 0, i 1, eq_ix2 i⟩
  rw [val_main_v12_apply, val_main_v9_apply, val_main_v11_apply, val_main_v10_apply, Fin.sum_univ_one]
  unfold Cert.KernelIdeal.Spec.edgeEnc
  rw [addf_apply, mulf_apply, bcast_col_apply, bcast_row_apply, bcast_row_apply, shapeCast_a_1a_apply]
  have e0 : lidx_main_v9 (ix2 r q) 0 = ix2 r (0 : Fin 1) := funext fun a => Fin.ext (by
    match a with
    | ⟨0, _⟩ => rfl
    | ⟨1, _⟩ => rfl)
  have e1 : ridx_main_v9 (ix2 r q) 0 = ix2 (0 : Fin 1) q := funext fun a => Fin.ext (by
    match a with
    | ⟨0, _⟩ => rfl
    | ⟨1, _⟩ => rfl)
  have e2 : idx_main_v10 (idx_main_v11 (ix2 r q)) = ix1 q := funext fun a => Fin.ext (by
    match a with
    | ⟨0, _⟩ => rfl)
  rw [e0, e1, e2]
  rfl

/-- A bias vector as a row: recast or broadcast, the same row. -/
theorem biasRow_eq (b : (⟨S64, .f32⟩ : BufTy).Contents (Elt Ideal)) :
    Cert.KernelIdeal.Spec.biasRow (F := Ideal) b = Cert.ReferenceIdeal.RefValue.biasBc b := by
  funext i
  obtain ⟨u, q, rfl⟩ : ∃ (u : Fin 1) (q : Fin 64), i = ix2 u q := ⟨i 0, i 1, eq_ix2 i⟩
  unfold Cert.KernelIdeal.Spec.biasRow Cert.ReferenceIdeal.RefValue.biasBc
  rw [shapeCast_a_1a_apply, bcast_vec_row_apply]

end Cert.Bridge

end
-- ==== Proof.lean ====
/-
  A two-layer GINE graph network with mean pooling, its node update run as a Pallas launch, against the jnp
  reference — equal on the extended reals.

  Both programs encode nodes (x_r · w_q + b_q) and edges, twice aggregate relu(h[src] + e) into the destination
  rows and update every node by relu(relu((h + agg) W1 + b1) W2 + b2), and finally average each graph's node rows.
  They differ in three places only, none of which is a difference on the extended reals:

  * the encoders: the reference multiplies by a 1 x 64 matrix (a sum over one index), the kernel's program
    broadcasts and multiplies entry by entry (Bridge);
  * the bias rows: a vector recast as a row against the same vector broadcast to a row (Bridge);
  * the node update: the launch computes it block by block of 5000 rows, its two sums as matrix products of
    operands passed through bf16 (the identity on the extended reals) into the zero array; the reference as two
    host products over all rows.  Row r of the update reads row r of its row-blocked operands only, so the blocks
    the launch writes back are the blocks of the host arrangement of the update over the whole array, and they tile
    the output (Mlp, Region0, Region1).

  The gather, the scatter-adds and the pooling are the same operations of the same operands in both programs and
  are never opened (KSpec, Net).  No step moves a factor across a sum or cancels, so the precondition (finite
  inputs) is not used.  The kernel program's run is its generated frame run with the result buffer kept in the post
  (KernelRun), the boundary contents read back through the host stretches (Walk, KernelValue); the reference's run
  and its stages are the generated ones, its result read as the network function in RefValue.  Nothing is rewritten
  by the idealization pass, so the preservation claim is trivial.
-/
import proofs.«411431_j77713138253983_3_alg».proof.Defs
import proofs.«411431_j77713138253983_3_alg».proof.Proof.Gen.Kernel
import proofs.«411431_j77713138253983_3_alg».proof.Proof.Gen.Kernel.Frame
import proofs.«411431_j77713138253983_3_alg».proof.Proof.Gen.KernelIdeal
import proofs.«411431_j77713138253983_3_alg».proof.Proof.Gen.KernelIdeal.Frame
import proofs.«411431_j77713138253983_3_alg».proof.Proof.Gen.ReferenceIdeal
import proofs.«411431_j77713138253983_3_alg».proof.Proof.Gen.Pre_finite_inputs
import proofs.«411431_j77713138253983_3_alg».proof.Proof.Gen.ReferenceIdeal.Run
import proofs.«411431_j77713138253983_3_alg».proof.Proof.Gen.ReferenceIdeal.Read
import proofs.«411431_j77713138253983_3_alg».proof.Proof.KernelRun
import proofs.«411431_j77713138253983_3_alg».proof.Proof.KernelValue
import proofs.«411431_j77713138253983_3_alg».proof.Proof.RefValue
import proofs.«411431_j77713138253983_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network function of the same arguments: of the kernel program's encodings and bias rows
    on one side, of the reference's on the other, which are the same arrays. -/
theorem algebraic : Cert.algebraic_KernelIdeal_ReferenceIdeal := by
  intro m ρ m' ρ' _ hagree
  refine ⟨fun c => Cert.KernelIdeal.Gen.W11 m ρ c (Proc.devRef .tc Cert.KernelIdeal.main_v57),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  show Cert.ReferenceIdeal.Value.res_main_v69 (F := Ideal) m' c
    = Cert.KernelIdeal.Gen.W11 m ρ c (Proc.devRef .tc Cert.KernelIdeal.main_v57)
  rw [Cert.ReferenceIdeal.RefValue.result_eq, Cert.KernelIdeal.KernelValue.result m ρ c,
    h0, h1, h2, h3, h4, h5, h6, h7, h8, h9, h10, h11, h12, h13, h14, h15,
    Cert.Bridge.nodeEnc_eq, Cert.Bridge.edgeEnc_eq, Cert.Bridge.biasRow_eq, Cert.Bridge.biasRow_eq,
    Cert.Bridge.biasRow_eq, Cert.Bridge.biasRow_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
